-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 13
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S1x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .f32⟩
  | .local _ .vmem, ⟨4, _⟩ => ⟨S200x10000, .f32⟩
  | .local _ .vmem, ⟨5, _⟩ => ⟨S200x10000, .f32⟩
  | .local _ .vmem, ⟨6, _⟩ => ⟨S10000x128, .f32⟩
  | .local _ .vmem, ⟨7, _⟩ => ⟨S128x128, .f32⟩
  | .local _ .vmem, ⟨8, _⟩ => ⟨S1x128, .f32⟩
  | .local _ .vmem, ⟨9, _⟩ => ⟨S200x128, .f32⟩
  | .local _ .vmem, ⟨10, _⟩ => ⟨S200x128, .f32⟩
  | .local _ .vmem, ⟨11, _⟩ => ⟨S200x10000, .f32⟩
  | .local _ .vmem, ⟨12, _⟩ => ⟨S200x10000, .f32⟩
  | .local _ .vmem, ⟨13, _⟩ => ⟨S10000x128, .f32⟩
  | .local _ .vmem, ⟨14, _⟩ => ⟨S200x128, .f32⟩
  | .local _ .vmem, ⟨15, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S200x10000_S200x10000_0_0 : ∀ a, (![0, 0] : Fin 2 → Nat) a + S200x10000.size a ≤ S200x10000.size a
  h_S200x10000 : 0 < S200x10000.numel
  shapeCasts_S10000x128_S10000x128 : S10000x128.ShapeCasts S10000x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x128.size a ≤ S10000x128.size a
  hwx1_4 : ∀ i : grid1.Coords, EltTy.bits .f32 = 32 ∨ (Rect.block (s := S10000x128) S200x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x128.size a ≤ S10000x128.size a
  hwx2_2 : ∀ i : grid2.Coords, EltTy.bits .f32 = 32 ∨ (Rect.block (s := S10000x128) S200x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v2) false false (stage0_2 0) (sem0_2 0) (Memref.isWhole_whole _) (hstage0_2 0)

abbrev win0_3 : Pipeline.Window sig grid0 :=
  Pipeline.Window.whole (Memref.whole main_v4) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S200x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The two-layer graph convolution as ONE function of its six arguments, entry by entry over the extended reals.

  With `x : [10000, 128]`, `adj : [10000, 10000]`, weights `W0, W1 : [128, 128]` and biases `b0, b1 : [128]`:
    first layer      g[p, q]   = Σ_k x[p, k] · W0[q, k] + b0[q]            (the product with the transposed weight)
    aggregation      t[p, q]   = Σ_j adj[p, j] · g[j, q]
    activation       h[p, q]   = max t[p, q] 0
    second layer     g2[p, q]  = Σ_k h[p, k] · W1[q, k] + b1[q]
    result           out[p, q] = Σ_j adj[p, j] · g2[j, q]
  The building blocks below take the weight already transposed (`wt[k, q]`) and the bias as a row `[1, 128]`, the form
  both programs hand them in; `tr` and `row` are the two layout changes.
-/
import Idealize.ShloMosaic.PureOps.Ideal
import Idealize.ShloMosaic.Lib.ValueIdx

noncomputable section

namespace Cert.Gcn

open Idealize.ShloMosaic Idealize.ShloMosaic.ValueIdx

/-- Node features, `[10000, 128]`. -/
abbrev Feat : Shape := ⟨2, ![10000, 128]⟩
/-- The dense adjacency, `[10000, 10000]`. -/
abbrev Adj : Shape := ⟨2, ![10000, 10000]⟩
/-- A weight matrix, `[128, 128]`. -/
abbrev Sq : Shape := ⟨2, ![128, 128]⟩
/-- A bias as a row, `[1, 128]`. -/
abbrev Row : Shape := ⟨2, ![1, 128]⟩
/-- A bias, `[128]`. -/
abbrev Bias : Shape := ⟨1, ![128]⟩

/-- The float zero both programs compare against, as its printed word. -/
abbrev zero : EReal := Ideal.ofBits .f32 0x00000000#32

/-- A function of (row, column) as an array. -/
abbrev arr2 {A B : Nat} (f : Fin A → Fin B → EReal) : (⟨2, ![A, B]⟩ : Shape).Idx → EReal := fun i => f (i 0) (i 1)

/-- The transposed weight: `tr W [k, q] = W[q, k]`. -/
abbrev tr (W : Sq.Idx → EReal) : Sq.Idx → EReal := fun i => W (ix2 (i 1) (i 0))
/-- The bias as a row: `row b [0, q] = b[q]`. -/
abbrev row (b : Bias.Idx → EReal) : Row.Idx → EReal := fun i => b (ix1 (i 1))

/-- A linear layer: `Σ_k x[p, k] · wt[k, q] + brow[0, q]`. -/
def lin (x : Feat.Idx → EReal) (wt : Sq.Idx → EReal) (brow : Row.Idx → EReal) (p : Fin 10000) (q : Fin 128) : EReal :=
  (∑ k : Fin 128, x (ix2 p k) * wt (ix2 k q)) + brow (ix2 (0 : Fin 1) q)

/-- An aggregation over the graph: `Σ_j adj[p, j] · h[j, q]`. -/
def agg (adj : Adj.Idx → EReal) (h : Feat.Idx → EReal) (p : Fin 10000) (q : Fin 128) : EReal :=
  ∑ j : Fin 10000, adj (ix2 p j) * h (ix2 j q)

/-- Aggregation, activation and the second linear layer fused, as the middle kernel computes them for one row:
    `Σ_k max (Σ_j adj[p, j] · g[j, k]) 0 · wt[k, q] + brow[0, q]`. -/
def mid (adj : Adj.Idx → EReal) (g : Feat.Idx → EReal) (wt : Sq.Idx → EReal) (brow : Row.Idx → EReal) (p : Fin 10000) (q : Fin 128) : EReal :=
  (∑ k : Fin 128, max (agg adj g p k) zero * wt (ix2 k q)) + brow (ix2 (0 : Fin 1) q)

/-- The whole network's result array. -/
def out (x : Feat.Idx → EReal) (adj : Adj.Idx → EReal) (W0 : Sq.Idx → EReal) (b0 : Bias.Idx → EReal)
    (W1 : Sq.Idx → EReal) (b1 : Bias.Idx → EReal) : Feat.Idx → EReal :=
  arr2 (agg adj (arr2 (mid adj (arr2 (lin x (tr W0) (row b0))) (tr W1) (row b1))))

/-- The middle stage over the activations named apart: the linear layer applied to `max t 0` is `mid`. -/
theorem lin_relu_agg (adj : Adj.Idx → EReal) (g : Feat.Idx → EReal) (wt : Sq.Idx → EReal) (brow : Row.Idx → EReal)
    (p : Fin 10000) (q : Fin 128) :
    lin (arr2 fun p k => max (agg adj g p k) zero) wt brow p q = mid adj g wt brow p q := rfl

end Cert.Gcn

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.KDots.lean ====
/-
  The three matrix products of the kernels, each read at one entry over the extended reals: into a zero accumulator,
  entry (p, q) of `l · r` is `Σ_k l[p, k] · r[k, q]`. All three contract the left operand's second axis with the
  right operand's first and have no batch axis; the four facts on where each reads its operands are stated at the
  literal axes, then handed to the general lemma.
-/
import proofs.«148541_g73469710566064_cont_sun_m_849_2_alg».proof.Proof.Gen.KernelIdeal
import proofs.«148541_g73469710566064_cont_sun_m_849_2_alg».proof.Proof.LibMatmulAt

noncomputable section

namespace Cert.KernelIdeal.Dots

open Cert.KernelIdeal Cert.KernelIdeal.Gen Idealize.ShloMosaic Idealize.ShloMosaic.ValueIdx

/-! ## Where each product reads its operands -/

theorem dot_S10000x128_S128x128_S10000x128_1_0_0_1_n_n_l0 (i : _) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dot_S10000x128_S128x128_S10000x128_1_0_0_1_n_n_l1 (i : _) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem dot_S10000x128_S128x128_S10000x128_1_0_0_1_n_n_r0 (i : _) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem dot_S10000x128_S128x128_S10000x128_1_0_0_1_n_n_r1 (i : _) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem dot_S200x10000_S10000x128_S200x128_1_0_0_1_n_n_l0 (i : _) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem dot_S200x10000_S10000x128_S200x128_1_0_0_1_n_n_l1 (i : _) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem dot_S200x10000_S10000x128_S200x128_1_0_0_1_n_n_r0 (i : _) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem dot_S200x10000_S10000x128_S200x128_1_0_0_1_n_n_r1 (i : _) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem dot_S200x128_S128x128_S200x128_1_0_0_1_n_n_l0 (i : _) (q : dot_S200x128_S128x128_S200x128_1_0_0_1_n_n.contr.Idx) : (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem dot_S200x128_S128x128_S200x128_1_0_0_1_n_n_l1 (i : _) (q : dot_S200x128_S128x128_S200x128_1_0_0_1_n_n.contr.Idx) : (dot_S200x128_S128x128_S200x128_1_0_0_1_n_n.lhsIdx i q 1).val = (q ⟨0, by decide⟩).val :=
  dot_S200x128_S128x128_S200x128_1_0_0_1_n_n.lhsIdx_val_of_single rfl i q
theorem dot_S200x128_S128x128_S200x128_1_0_0_1_n_n_r0 (i : _) (q : dot_S200x128_S128x128_S200x128_1_0_0_1_n_n.contr.Idx) : (dot_S200x128_S128x128_S200x128_1_0_0_1_n_n.rhsIdx i q 0).val = (q ⟨0, by decide⟩).val :=
  dot_S200x128_S128x128_S200x128_1_0_0_1_n_n.rhsIdx_val_of_single rfl i q
theorem dot_S200x128_S128x128_S200x128_1_0_0_1_n_n_r1 (i : _) (q : dot_S200x128_S128x128_S200x128_1_0_0_1_n_n.contr.Idx) : (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-! ## The products at an entry -/

/-- `[10000 × 128] · [128 × 128]`: the first layer's product. -/
theorem lin_at (l : FVec Ideal S10000x128 .f32) (r : FVec Ideal S128x128 .f32) (p : Fin 10000) (q : Fin 128) :
    FloatOps.matmul dot_S10000x128_S128x128_S10000x128_1_0_0_1_n_n none l r (constant (F := Ideal) S10000x128 .f32 0x00000000#32) (ix2 p q)
      = ∑ k : Fin 128, l (ix2 p k) * r (ix2 k q) :=
  MatmulAt.matmul_zero_at dot_S10000x128_S128x128_S10000x128_1_0_0_1_n_n rfl rfl dot_S10000x128_S128x128_S10000x128_1_0_0_1_n_n_l0 dot_S10000x128_S128x128_S10000x128_1_0_0_1_n_n_l1 dot_S10000x128_S128x128_S10000x128_1_0_0_1_n_n_r0 dot_S10000x128_S128x128_S10000x128_1_0_0_1_n_n_r1 none l r p q

/-- `[200 × 10000] · [10000 × 128]`: a block of adjacency rows against the whole feature matrix. -/
theorem rows_at (l : FVec Ideal S200x10000 .f32) (r : FVec Ideal S10000x128 .f32) (p : Fin 200) (q : Fin 128) :
    FloatOps.matmul dot_S200x10000_S10000x128_S200x128_1_0_0_1_n_n none l r (constant (F := Ideal) S200x128 .f32 0x00000000#32) (ix2 p q)
      = ∑ k : Fin 10000, l (ix2 p k) * r (ix2 k q) :=
  MatmulAt.matmul_zero_at dot_S200x10000_S10000x128_S200x128_1_0_0_1_n_n rfl rfl dot_S200x10000_S10000x128_S200x128_1_0_0_1_n_n_l0 dot_S200x10000_S10000x128_S200x128_1_0_0_1_n_n_l1 dot_S200x10000_S10000x128_S200x128_1_0_0_1_n_n_r0 dot_S200x10000_S10000x128_S200x128_1_0_0_1_n_n_r1 none l r p q

/-- `[200 × 128] · [128 × 128]`: the second layer's product on a block of rows. -/
theorem sq_at (l : FVec Ideal S200x128 .f32) (r : FVec Ideal S128x128 .f32) (p : Fin 200) (q : Fin 128) :
    FloatOps.matmul dot_S200x128_S128x128_S200x128_1_0_0_1_n_n none l r (constant (F := Ideal) S200x128 .f32 0x00000000#32) (ix2 p q)
      = ∑ k : Fin 128, l (ix2 p k) * r (ix2 k q) :=
  MatmulAt.matmul_zero_at dot_S200x128_S128x128_S200x128_1_0_0_1_n_n rfl rfl dot_S200x128_S128x128_S200x128_1_0_0_1_n_n_l0 dot_S200x128_S128x128_S200x128_1_0_0_1_n_n_l1 dot_S200x128_S128x128_S200x128_1_0_0_1_n_n_r0 dot_S200x128_S128x128_S200x128_1_0_0_1_n_n_r1 none l r p q

end Cert.KernelIdeal.Dots

end
-- ==== Proof.KFirst.lean ====
/-
  The first kernel: `g = x · wt + brow` in one step, everything resident at once.

  At whatever contents the region finds its arrays, the body's one store is the product of the whole `[10000, 128]`
  operand with the `[128, 128]` one plus the `[1, 128]` row broadcast to every row; its single grid point writes back
  the whole output array, `(p, q) ↦ Σ_k x[p, k] · wt[k, q] + brow[0, q]`.
-/
import proofs.«148541_g73469710566064_cont_sun_m_849_2_alg».proof.Proof.Gen.KernelIdeal.Frame
import proofs.«148541_g73469710566064_cont_sun_m_849_2_alg».proof.Proof.Spec
import proofs.«148541_g73469710566064_cont_sun_m_849_2_alg».proof.Proof.KDots
import Idealize.ShloMosaic.Lib.Pipeline.Value

set_option maxRecDepth 16384

noncomputable section

namespace Cert.KernelIdeal.First

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at (p, q): the product's entry plus the bias row's entry of column `q`. -/
theorem payload_at (x0 : Vec Ideal S10000x128 .f32) (x1 : Vec Ideal S128x128 .f32) (x2 : Vec Ideal S1x128 .f32) (p : Fin 10000) (q : Fin 128) :
    k0_pay1 (F := Ideal) x0 x1 x2 (ix2 p q) = (∑ k : Fin 128, x0 (ix2 p k) * x1 (ix2 k q)) + x2 (ix2 (0 : Fin 1) q) := by
  unfold k0_pay1
  rw [shapeCast_self, shapeCast_self]
  exact congrArg₂ (· + ·) (Dots.lin_at x0 x1 p q)
    (broadcastTo_apply x2 broadcasts_S1x128_S10000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)]))

/-- The index maps over the grid, axis by axis. -/
theorem idx_facts : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0 :=
  (by decide +kernel : ∀ t : Fin grid0.N, _)

theorem lt_points (t : Fin cfg0.N) : t.val < 1 := lt_of_lt_of_eq t.isLt N_0

/-- The first operand's one block is the whole array. -/
theorem x_block (c : Dev nD) (t : Fin cfg0.N) (a : Fin 10000) (b : Fin 128) :
    iblk0 V c 0 t (ix2 a b) = V c main_arg0 (ix2 a b) := by
  obtain ⟨e00, e01, e10, e11, e20, e21, e30, e31⟩ := idx_facts t
  unfold iblk0
  rw [View.read_apply]
  show V c main_arg0 (((cfg0.win 0).blk t).view.emb (ix2 a b)) = _
  refine congrArg (V c main_arg0) ?_
  funext d; apply Fin.ext
  match d with
  | ⟨0, _⟩ => show win0_0.index t (0 : Fin 2) * 10000 + 1 * a.val = a.val; omega
  | ⟨1, _⟩ => show win0_0.index t (1 : Fin 2) * 128 + 1 * b.val = b.val; omega

/-- The weight's one block is the whole array. -/
theorem w_block (c : Dev nD) (t : Fin cfg0.N) (a : Fin 128) (b : Fin 128) :
    iblk0 V c 1 t (ix2 a b) = V c main_v0 (ix2 a b) := by
  obtain ⟨e00, e01, e10, e11, e20, e21, e30, e31⟩ := idx_facts t
  unfold iblk0
  rw [View.read_apply]
  show V c main_v0 (((cfg0.win 1).blk t).view.emb (ix2 a b)) = _
  refine congrArg (V c main_v0) ?_
  funext d; apply Fin.ext
  match d with
  | ⟨0, _⟩ => show win0_1.index t (0 : Fin 2) * 128 + 1 * a.val = a.val; omega
  | ⟨1, _⟩ => show win0_1.index t (1 : Fin 2) * 128 + 1 * b.val = b.val; omega

/-- The bias row's one block is the whole array. -/
theorem b_block (c : Dev nD) (t : Fin cfg0.N) (a : Fin 1) (b : Fin 128) :
    iblk0 V c 2 t (ix2 a b) = V c main_v2 (ix2 a b) := by
  obtain ⟨e00, e01, e10, e11, e20, e21, e30, e31⟩ := idx_facts t
  unfold iblk0
  rw [View.read_apply]
  show V c main_v2 (((cfg0.win 2).blk t).view.emb (ix2 a b)) = _
  refine congrArg (V c main_v2) ?_
  funext d; apply Fin.ext
  match d with
  | ⟨0, _⟩ => show win0_2.index t (0 : Fin 2) * 1 + 1 * a.val = a.val; omega
  | ⟨1, _⟩ => show win0_2.index t (1 : Fin 2) * 128 + 1 * b.val = b.val; omega

/-- What the one point writes back is the linear layer of the arrays the region finds. -/
theorem flushed_eq (c : Dev nD) (t : Fin cfg0.N) :
    (dat0 V c).flushed 3 t = ((cfg0.win 3).blk t).view.read (Elt Ideal) (arr2 (lin (V c main_arg0) (V c main_v0) (V c main_v2))) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin, View.ld_unit_zero (S := S1x128) origin]
  obtain ⟨e00, e01, e10, e11, e20, e21, e30, e31⟩ := idx_facts t
  funext y
  obtain ⟨p, q, rfl⟩ : ∃ (p : Fin 10000) (q : Fin 128), y = ix2 p q := ⟨y 0, y 1, eq_ix2 y⟩
  refine (payload_at (iblk0 V c 0 t) (iblk0 V c 1 t) (iblk0 V c 2 t) p q).trans ?_
  rw [View.read_apply]
  have hemb : ((cfg0.win 3).blk t).view.emb (ix2 p q) = ix2 p q := by
    funext d; apply Fin.ext
    match d with
    | ⟨0, _⟩ => show win0_3.index t (0 : Fin 2) * 10000 + 1 * p.val = p.val; omega
    | ⟨1, _⟩ => show win0_3.index t (1 : Fin 2) * 128 + 1 * q.val = q.val; omega
  rw [hemb]
  show _ = lin (V c main_arg0) (V c main_v0) (V c main_v2) p q
  unfold lin
  refine congrArg₂ (· + ·) (Finset.sum_congr rfl fun k _ => ?_) ?_
  · rw [x_block V c t p k, w_block V c t k q]
  · exact b_block V c t (0 : Fin 1) q

/-- An index of the output array is in point `t`'s block iff each coordinate is in the block's range on its axis. -/
theorem mem_block (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v4).slice (win0_3.rect t)).set ↔ _
  rw [View.set_slice_whole, Rect.mem_set_unit]
  exact Iff.rfl

/-- Row `p` is in the block of point `p / 10000`: the blocks cover the output array. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : (i 0).val / 10000 < cfg0.N := by rw [show cfg0.N = 1 from N_0]; omega
  obtain ⟨e00, e01, e10, e11, e20, e21, e30, e31⟩ := idx_facts ⟨(i 0).val / 10000, hN⟩
  refine ⟨⟨(i 0).val / 10000, hN⟩, flush0_3 _, ?_⟩
  rw [mem_block]
  intro a
  match a with
  | ⟨0, _⟩ => show win0_3.index ⟨(i 0).val / 10000, hN⟩ (0 : Fin 2) * 10000 ≤ (i 0).val ∧ (i 0).val < win0_3.index ⟨(i 0).val / 10000, hN⟩ (0 : Fin 2) * 10000 + 10000; simp only at e30; omega
  | ⟨1, _⟩ => show win0_3.index ⟨(i 0).val / 10000, hN⟩ (1 : Fin 2) * 128 ≤ (i 1).val ∧ (i 1).val < win0_3.index ⟨(i 0).val / 10000, hN⟩ (1 : Fin 2) * 128 + 128; omega

/-- The output array after the region, as one function of the arrays it found. -/
theorem final (c : Dev nD) : (dat0 V c).arrAt 3 cfg0.N = arr2 (lin (V c main_arg0) (V c main_v0) (V c main_v2)) :=
  (dat0 V c).arrAt_eq_of_cover 3 _ (fun t _ => flushed_eq V c t) cover

end Cert.KernelIdeal.First

end
-- ==== Proof.KMid.lean ====
/-
  The middle kernel: `g2 = max (adj · g) 0 · wt + brow`, fifty grid points, point `t` computing rows `200 t … 200 t + 199`.

  At whatever contents the region finds its arrays, the body multiplies the point's block of adjacency rows with the
  whole feature matrix, takes the maximum with zero, multiplies with the `[128, 128]` weight and adds the `[1, 128]`
  row; so what point `t` writes back is its block of ONE array,
  `(p, q) ↦ Σ_k max (Σ_j adj[p, j] · g[j, k]) 0 · wt[k, q] + brow[0, q]`, and the fifty row blocks tile the output.
-/
import proofs.«148541_g73469710566064_cont_sun_m_849_2_alg».proof.Proof.Gen.KernelIdeal.Frame
import proofs.«148541_g73469710566064_cont_sun_m_849_2_alg».proof.Proof.Spec
import proofs.«148541_g73469710566064_cont_sun_m_849_2_alg».proof.Proof.KDots
import Idealize.ShloMosaic.Lib.Pipeline.Value

set_option maxRecDepth 16384

noncomputable section

namespace Cert.KernelIdeal.Mid

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `r`, column `q` of its block. -/
theorem payload_at (x0 : Vec Ideal S200x10000 .f32) (x1 : Vec Ideal S10000x128 .f32) (x2 : Vec Ideal S128x128 .f32) (x3 : Vec Ideal S1x128 .f32)
    (r : Fin 200) (q : Fin 128) :
    k1_pay1 (F := Ideal) x0 x1 x2 x3 (ix2 r q)
      = (∑ k : Fin 128, max (∑ j : Fin 10000, x0 (ix2 r j) * x1 (ix2 j k)) zero * x2 (ix2 k q)) + x3 (ix2 (0 : Fin 1) q) := by
  unfold k1_pay1
  rw [shapeCast_self, shapeCast_self, shapeCast_self]
  refine (congrArg₂ (· + ·) (Dots.sq_at _ x2 r q)
    (broadcastTo_apply x3 broadcasts_S1x128_S200x128 (ix2 r q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)]))).trans ?_
  refine congrArg (· + x3 (ix2 (0 : Fin 1) q)) (Finset.sum_congr rfl fun k _ => ?_)
  exact congrArg (· * x2 (ix2 k q)) (congrArg (max · zero) (Dots.rows_at x0 x1 r k))

/-- The index maps over the grid, axis by axis. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

theorem lt_points (t : Fin cfg1.N) : t.val < 50 := lt_of_lt_of_eq t.isLt N_1

/-- Row `a` of point `t`'s adjacency block is row `200 t + a` of the adjacency. -/
theorem adj_block (c : Dev nD) (t : Fin cfg1.N) (a : Fin 200) (b : Fin 10000) :
    iblk1 V c 0 t (ix2 a b) = V c main_arg1 (ix2 (⟨200 * t.val + a.val, by have := lt_points t; omega⟩ : Fin 10000) b) := by
  obtain ⟨e00, e01, e10, e11, e20, e21, e30, e31, e40, e41⟩ := idx_facts t
  unfold iblk1
  rw [View.read_apply]
  show V c main_arg1 (((cfg1.win 0).blk t).view.emb (ix2 a b)) = _
  refine congrArg (V c main_arg1) ?_
  funext d; apply Fin.ext
  match d with
  | ⟨0, _⟩ => show win1_0.index t (0 : Fin 2) * 200 + 1 * a.val = 200 * t.val + a.val; omega
  | ⟨1, _⟩ => show win1_0.index t (1 : Fin 2) * 10000 + 1 * b.val = b.val; omega

/-- The feature matrix's one block is the whole array. -/
theorem g_block (c : Dev nD) (t : Fin cfg1.N) (a : Fin 10000) (b : Fin 128) :
    iblk1 V c 1 t (ix2 a b) = V c main_v4 (ix2 a b) := by
  obtain ⟨e00, e01, e10, e11, e20, e21, e30, e31, e40, e41⟩ := idx_facts t
  unfold iblk1
  rw [View.read_apply]
  show V c main_v4 (((cfg1.win 1).blk t).view.emb (ix2 a b)) = _
  refine congrArg (V c main_v4) ?_
  funext d; apply Fin.ext
  match d with
  | ⟨0, _⟩ => show win1_1.index t (0 : Fin 2) * 10000 + 1 * a.val = a.val; omega
  | ⟨1, _⟩ => show win1_1.index t (1 : Fin 2) * 128 + 1 * b.val = b.val; omega

/-- The weight's one block is the whole array. -/
theorem w_block (c : Dev nD) (t : Fin cfg1.N) (a : Fin 128) (b : Fin 128) :
    iblk1 V c 2 t (ix2 a b) = V c main_v1 (ix2 a b) := by
  obtain ⟨e00, e01, e10, e11, e20, e21, e30, e31, e40, e41⟩ := idx_facts t
  unfold iblk1
  rw [View.read_apply]
  show V c main_v1 (((cfg1.win 2).blk t).view.emb (ix2 a b)) = _
  refine congrArg (V c main_v1) ?_
  funext d; apply Fin.ext
  match d with
  | ⟨0, _⟩ => show win1_2.index t (0 : Fin 2) * 128 + 1 * a.val = a.val; omega
  | ⟨1, _⟩ => show win1_2.index t (1 : Fin 2) * 128 + 1 * b.val = b.val; omega

/-- The bias row's one block is the whole array. -/
theorem b_block (c : Dev nD) (t : Fin cfg1.N) (a : Fin 1) (b : Fin 128) :
    iblk1 V c 3 t (ix2 a b) = V c main_v3 (ix2 a b) := by
  obtain ⟨e00, e01, e10, e11, e20, e21, e30, e31, e40, e41⟩ := idx_facts t
  unfold iblk1
  rw [View.read_apply]
  show V c main_v3 (((cfg1.win 3).blk t).view.emb (ix2 a b)) = _
  refine congrArg (V c main_v3) ?_
  funext d; apply Fin.ext
  match d with
  | ⟨0, _⟩ => show win1_3.index t (0 : Fin 2) * 1 + 1 * a.val = a.val; omega
  | ⟨1, _⟩ => show win1_3.index t (1 : Fin 2) * 128 + 1 * b.val = b.val; omega

/-- What point `t` writes back is its block of the fused middle stage of the arrays the region finds. -/
theorem flushed_eq (c : Dev nD) (t : Fin cfg1.N) :
    (dat1 V c).flushed 4 t = ((cfg1.win 4).blk t).view.read (Elt Ideal) (arr2 (mid (V c main_arg1) (V c main_v4) (V c main_v1) (V c main_v3))) := by
  show (cfg1.win 4).cut (grid1.coords t) ((dat1 V c).after 4 t) = _
  rw [after1_4]
  unfold out1_4
  rw [View.canon_unit_zero origin]
  simp only [View.ld_unit_zero (S := S200x10000) origin, View.ld_unit_zero (S := S10000x128) origin, View.ld_unit_zero (S := S128x128) origin, View.ld_unit_zero (S := S1x128) origin]
  obtain ⟨e00, e01, e10, e11, e20, e21, e30, e31, e40, e41⟩ := idx_facts t
  funext y
  obtain ⟨r, q, rfl⟩ : ∃ (r : Fin 200) (q : Fin 128), y = ix2 r q := ⟨y 0, y 1, eq_ix2 y⟩
  refine (payload_at (iblk1 V c 0 t) (iblk1 V c 1 t) (iblk1 V c 2 t) (iblk1 V c 3 t) r q).trans ?_
  rw [View.read_apply]
  have hemb : ((cfg1.win 4).blk t).view.emb (ix2 r q) = ix2 (⟨200 * t.val + r.val, by have := lt_points t; omega⟩ : Fin 10000) q := by
    funext d; apply Fin.ext
    match d with
    | ⟨0, _⟩ => show win1_4.index t (0 : Fin 2) * 200 + 1 * r.val = 200 * t.val + r.val; omega
    | ⟨1, _⟩ => show win1_4.index t (1 : Fin 2) * 128 + 1 * q.val = q.val; omega
  rw [hemb]
  show _ = mid (V c main_arg1) (V c main_v4) (V c main_v1) (V c main_v3) _ q
  unfold mid agg
  refine congrArg₂ (· + ·) (Finset.sum_congr rfl fun k _ => congrArg₂ (· * ·) (congrArg (max · zero) (Finset.sum_congr rfl fun j _ => ?_)) ?_) ?_
  · rw [adj_block V c t r j, g_block V c t j k]
  · exact w_block V c t k q
  · exact b_block V c t (0 : Fin 1) q

/-- An index of the output array is in point `t`'s block iff each coordinate is in the block's range on its axis. -/
theorem mem_block (t : Fin cfg1.N) (i : S10000x128.Idx) :
    i ∈ ((cfg1.win 4).blk t).view.set ↔ ∀ a : Fin 2, win1_4.index t a * S200x128.size a ≤ (i a).val ∧ (i a).val < win1_4.index t a * S200x128.size a + S200x128.size a := by
  show i ∈ ((View.whole main_v5).slice (win1_4.rect t)).set ↔ _
  rw [View.set_slice_whole, Rect.mem_set_unit]
  exact Iff.rfl

/-- Row `p` is in the block of point `p / 200`: the blocks cover the output array. -/
theorem cover (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : (i 0).val / 200 < cfg1.N := by rw [show cfg1.N = 50 from N_1]; omega
  obtain ⟨e00, e01, e10, e11, e20, e21, e30, e31, e40, e41⟩ := idx_facts ⟨(i 0).val / 200, hN⟩
  refine ⟨⟨(i 0).val / 200, hN⟩, flush1_4 _, ?_⟩
  rw [mem_block]
  intro a
  match a with
  | ⟨0, _⟩ => show win1_4.index ⟨(i 0).val / 200, hN⟩ (0 : Fin 2) * 200 ≤ (i 0).val ∧ (i 0).val < win1_4.index ⟨(i 0).val / 200, hN⟩ (0 : Fin 2) * 200 + 200; simp only at e40; omega
  | ⟨1, _⟩ => show win1_4.index ⟨(i 0).val / 200, hN⟩ (1 : Fin 2) * 128 ≤ (i 1).val ∧ (i 1).val < win1_4.index ⟨(i 0).val / 200, hN⟩ (1 : Fin 2) * 128 + 128; omega

/-- The output array after the region, as one function of the arrays it found. -/
theorem final (c : Dev nD) : (dat1 V c).arrAt 4 cfg1.N = arr2 (mid (V c main_arg1) (V c main_v4) (V c main_v1) (V c main_v3)) :=
  (dat1 V c).arrAt_eq_of_cover 4 _ (fun t _ => flushed_eq V c t) cover

end Cert.KernelIdeal.Mid

end
-- ==== Proof.KLast.lean ====
/-
  The last kernel: `out = adj · g2`, fifty grid points, point `t` computing rows `200 t … 200 t + 199`.

  At whatever contents the region finds its arrays, the body's one store is the product of the point's block of
  adjacency rows (rows `200 t + r`, all 10000 columns) with the whole `[10000, 128]` operand; so what point `t` writes
  back is its block of ONE array, `(p, q) ↦ Σ_j adj[p, j] · g2[j, q]`, and the fifty row blocks tile the result.
-/
import proofs.«148541_g73469710566064_cont_sun_m_849_2_alg».proof.Proof.Gen.KernelIdeal.Frame
import proofs.«148541_g73469710566064_cont_sun_m_849_2_alg».proof.Proof.Spec
import proofs.«148541_g73469710566064_cont_sun_m_849_2_alg».proof.Proof.KDots
import Idealize.ShloMosaic.Lib.Pipeline.Value

set_option maxRecDepth 16384

noncomputable section

namespace Cert.KernelIdeal.Last

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `r`, column `q` of its block: the row of the adjacency block against column `q`. -/
theorem payload_at (x0 : Vec Ideal S200x10000 .f32) (x1 : Vec Ideal S10000x128 .f32) (r : Fin 200) (q : Fin 128) :
    k2_pay1 (F := Ideal) x0 x1 (ix2 r q) = ∑ j : Fin 10000, x0 (ix2 r j) * x1 (ix2 j q) := by
  unfold k2_pay1
  rw [shapeCast_self]
  exact Dots.rows_at x0 x1 r q

/-- The index maps over the grid: the adjacency block and the output block are both block `t` of rows, at column
    block 0; the whole operand is at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt50 (t : Fin cfg2.N) : t.val < 50 := lt_of_lt_of_eq t.isLt N_2

/-- Row `r` of point `t`'s adjacency block is row `200 t + r` of the adjacency. -/
theorem adj_block (c : Dev nD) (t : Fin cfg2.N) (r : Fin 200) (j : Fin 10000) :
    iblk2 V c 0 t (ix2 r j) = V c main_arg1 (ix2 (⟨200 * t.val + r.val, by have := lt50 t; omega⟩ : Fin 10000) j) := by
  obtain ⟨e0, e1, -, -, -, -⟩ := idx_facts t
  unfold iblk2
  rw [View.read_apply]
  show V c main_arg1 (((cfg2.win 0).blk t).view.emb (ix2 r j)) = _
  refine congrArg (V c main_arg1) ?_
  funext a; apply Fin.ext
  match a with
  | ⟨0, _⟩ => show win2_0.index t (0 : Fin 2) * 200 + 1 * r.val = 200 * t.val + r.val; omega
  | ⟨1, _⟩ => show win2_0.index t (1 : Fin 2) * 10000 + 1 * j.val = j.val; omega

/-- The second operand's one block is the whole array. -/
theorem whole_block (c : Dev nD) (t : Fin cfg2.N) (j : Fin 10000) (q : Fin 128) :
    iblk2 V c 1 t (ix2 j q) = V c main_v5 (ix2 j q) := by
  obtain ⟨-, -, e2, e3, -, -⟩ := idx_facts t
  unfold iblk2
  rw [View.read_apply]
  show V c main_v5 (((cfg2.win 1).blk t).view.emb (ix2 j q)) = _
  refine congrArg (V c main_v5) ?_
  funext a; apply Fin.ext
  match a with
  | ⟨0, _⟩ => show win2_1.index t (0 : Fin 2) * 10000 + 1 * j.val = j.val; omega
  | ⟨1, _⟩ => show win2_1.index t (1 : Fin 2) * 128 + 1 * q.val = q.val; omega

/-- What point `t` writes back is its block of the aggregation of the arrays the region finds. -/
theorem flushed_eq (c : Dev nD) (t : Fin cfg2.N) :
    (dat2 V c).flushed 2 t = ((cfg2.win 2).blk t).view.read (Elt Ideal) (arr2 (agg (V c main_arg1) (V c main_v5))) := by
  show (cfg2.win 2).cut (grid2.coords t) ((dat2 V c).after 2 t) = _
  rw [after2_2]
  unfold out2_2
  rw [View.canon_unit_zero origin]
  simp only [View.ld_unit_zero (S := S200x10000) origin, View.ld_unit_zero (S := S10000x128) origin]
  obtain ⟨-, -, -, -, e4, e5⟩ := idx_facts t
  funext y
  obtain ⟨r, q, rfl⟩ : ∃ (r : Fin 200) (q : Fin 128), y = ix2 r q := ⟨y 0, y 1, eq_ix2 y⟩
  refine (payload_at (iblk2 V c 0 t) (iblk2 V c 1 t) r q).trans ?_
  rw [View.read_apply]
  have hemb : ((cfg2.win 2).blk t).view.emb (ix2 r q) = ix2 (⟨200 * t.val + r.val, by have := lt50 t; omega⟩ : Fin 10000) q := by
    funext a; apply Fin.ext
    match a with
    | ⟨0, _⟩ => show win2_2.index t (0 : Fin 2) * 200 + 1 * r.val = 200 * t.val + r.val; omega
    | ⟨1, _⟩ => show win2_2.index t (1 : Fin 2) * 128 + 1 * q.val = q.val; omega
  rw [hemb]
  show _ = agg (V c main_arg1) (V c main_v5) _ q
  unfold agg
  exact Finset.sum_congr rfl fun j _ => by rw [adj_block V c t r j, whole_block V c t j q]

/-- An index of the result is in point `t`'s block iff each coordinate is in the block's range on its axis. -/
theorem mem_block (t : Fin cfg2.N) (i : S10000x128.Idx) :
    i ∈ ((cfg2.win 2).blk t).view.set ↔ ∀ a : Fin 2, win2_2.index t a * S200x128.size a ≤ (i a).val ∧ (i a).val < win2_2.index t a * S200x128.size a + S200x128.size a := by
  show i ∈ ((View.whole main_v6).slice (win2_2.rect t)).set ↔ _
  rw [View.set_slice_whole, Rect.mem_set_unit]
  exact Iff.rfl

/-- Row `p` is in the block of point `p / 200`: the fifty blocks cover the result. -/
theorem cover (i : S10000x128.Idx) : ∃ t : Fin cfg2.N, (cfg2.win 2).flush t = true ∧ i ∈ ((cfg2.win 2).blk t).view.set := by
  have hi0 : (i 0).val < 10000 := (i 0).isLt
  have hi1 : (i 1).val < 128 := (i 1).isLt
  have hN : (i 0).val / 200 < cfg2.N := by rw [show cfg2.N = 50 from N_2]; omega
  obtain ⟨-, -, -, -, e4, e5⟩ := idx_facts ⟨(i 0).val / 200, hN⟩
  refine ⟨⟨(i 0).val / 200, hN⟩, flush2_2 _, ?_⟩
  rw [mem_block]
  intro a
  match a with
  | ⟨0, _⟩ => show win2_2.index ⟨(i 0).val / 200, hN⟩ (0 : Fin 2) * 200 ≤ (i 0).val ∧ (i 0).val < win2_2.index ⟨(i 0).val / 200, hN⟩ (0 : Fin 2) * 200 + 200; simp only at e4; omega
  | ⟨1, _⟩ => show win2_2.index ⟨(i 0).val / 200, hN⟩ (1 : Fin 2) * 128 ≤ (i 1).val ∧ (i 1).val < win2_2.index ⟨(i 0).val / 200, hN⟩ (1 : Fin 2) * 128 + 128; omega

/-- The result array after the region: the aggregation of the arrays it found. -/
theorem final (c : Dev nD) : (dat2 V c).arrAt 2 cfg2.N = arr2 (agg (V c main_arg1) (V c main_v5)) :=
  (dat2 V c).arrAt_eq_of_cover 2 _ (fun t _ => flushed_eq V c t) cover

end Cert.KernelIdeal.Last

end
-- ==== Proof.KWhole.lean ====
/-
  The idealized kernel program's result is the network's function `Gcn.out` of its six arguments.

  The program is a stretch of four layout operations (the two weights transposed, the two biases reshaped to rows) and
  then the three kernels; the contents at each boundary are followed from the launch: each kernel's output array is
  the function its module proves of the arrays it finds, every buffer a kernel does not write is what it was, and an
  input window's array is unchanged. Composing the three gives `adj · (max (adj · (x · W0ᵀ + b0)) 0 · W1ᵀ + b1)`.
-/
import proofs.«148541_g73469710566064_cont_sun_m_849_2_alg».proof.Proof.Gen.KernelIdeal.Frame
import proofs.«148541_g73469710566064_cont_sun_m_849_2_alg».proof.Proof.Spec
import proofs.«148541_g73469710566064_cont_sun_m_849_2_alg».proof.Proof.KFirst
import proofs.«148541_g73469710566064_cont_sun_m_849_2_alg».proof.Proof.KMid
import proofs.«148541_g73469710566064_cont_sun_m_849_2_alg».proof.Proof.KLast
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.Gcn
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-! ## The layout operations before the first kernel -/

/-- A `[128, 128]` transpose read at an entry is the operand at the swapped entry. -/
theorem transpose_eq_tr (W : S128x128.Idx → EReal) :
    transpose S128x128 [1, 0] W transposes_S128x128_S128x128_1_0 = tr W := by
  funext i
  exact transpose_apply [1, 0] W transposes_S128x128_S128x128_1_0 i (ix2 (i 1) (i 0)) (fun b => match b with
    | ⟨0, _⟩ => rfl
    | ⟨1, _⟩ => rfl)

/-- A `[128]` vector reshaped to `[1, 128]` is the vector as a row. -/
theorem reshape_eq_row (b : S128.Idx → EReal) : shapeCast S1x128 b shapeCasts_S128_S1x128 = row b := by
  funext i
  refine (shapeCast_addUnit_apply ![128] b shapeCasts_S128_S1x128 i).trans (congrArg b ?_)
  funext a
  match a with
  | ⟨0, _⟩ => rfl

theorem host_x (c : Dev nD) : V1 m ρ c main_arg0 = m ((c : Thread nD τ).loc main_arg0) := by
  dsimp only [V1, W1, W0, hostOps0]; after_results <;> rfl
theorem host_adj (c : Dev nD) : V1 m ρ c main_arg1 = m ((c : Thread nD τ).loc main_arg1) := by
  dsimp only [V1, W1, W0, hostOps0]; after_results <;> rfl
theorem host_wt0 (c : Dev nD) : V1 m ρ c main_v0 = tr (m ((c : Thread nD τ).loc main_arg2)) := by
  refine Eq.trans ?_ (transpose_eq_tr (m ((c : Thread nD τ).loc main_arg2)))
  dsimp only [V1, W1, W0, hostOps0]; after_results <;> rfl
theorem host_wt1 (c : Dev nD) : V1 m ρ c main_v1 = tr (m ((c : Thread nD τ).loc main_arg4)) := by
  refine Eq.trans ?_ (transpose_eq_tr (m ((c : Thread nD τ).loc main_arg4)))
  dsimp only [V1, W1, W0, hostOps0]; after_results <;> rfl
theorem host_row0 (c : Dev nD) : V1 m ρ c main_v2 = row (m ((c : Thread nD τ).loc main_arg3)) := by
  refine Eq.trans ?_ (reshape_eq_row (m ((c : Thread nD τ).loc main_arg3)))
  dsimp only [V1, W1, W0, hostOps0]; after_results <;> rfl
theorem host_row1 (c : Dev nD) : V1 m ρ c main_v3 = row (m ((c : Thread nD τ).loc main_arg5)) := by
  refine Eq.trans ?_ (reshape_eq_row (m ((c : Thread nD τ).loc main_arg5)))
  dsimp only [V1, W1, W0, hostOps0]; after_results <;> rfl

/-! ## After the first kernel -/

/-- The first kernel's output: the first linear layer of the arguments. -/
theorem first_out (c : Dev nD) : V2 m ρ c main_v4
    = arr2 (lin (m ((c : Thread nD τ).loc main_arg0)) (tr (m ((c : Thread nD τ).loc main_arg2))) (row (m ((c : Thread nD τ).loc main_arg3)))) := by
  refine (W2_arr m ρ c 3).trans ((First.final (V1 m ρ) c).trans ?_)
  rw [host_x m ρ c, host_wt0 m ρ c, host_row0 m ρ c]
theorem first_adj (c : Dev nD) : V2 m ρ c main_arg1 = m ((c : Thread nD τ).loc main_arg1) :=
  (W2_of_ne m ρ c main_arg1 (by decide)).trans (host_adj m ρ c)
theorem first_wt1 (c : Dev nD) : V2 m ρ c main_v1 = tr (m ((c : Thread nD τ).loc main_arg4)) :=
  (W2_of_ne m ρ c main_v1 (by decide)).trans (host_wt1 m ρ c)
theorem first_row1 (c : Dev nD) : V2 m ρ c main_v3 = row (m ((c : Thread nD τ).loc main_arg5)) :=
  (W2_of_ne m ρ c main_v3 (by decide)).trans (host_row1 m ρ c)

/-! ## After the middle kernel -/

/-- The middle kernel's output: aggregation, activation and the second linear layer of the first layer's output. -/
theorem mid_out (c : Dev nD) : V3 m ρ c main_v5
    = arr2 (mid (m ((c : Thread nD τ).loc main_arg1))
        (arr2 (lin (m ((c : Thread nD τ).loc main_arg0)) (tr (m ((c : Thread nD τ).loc main_arg2))) (row (m ((c : Thread nD τ).loc main_arg3)))))
        (tr (m ((c : Thread nD τ).loc main_arg4))) (row (m ((c : Thread nD τ).loc main_arg5)))) := by
  refine (W3_arr m ρ c 4).trans ((Mid.final (V2 m ρ) c).trans ?_)
  rw [first_adj m ρ c, first_out m ρ c, first_wt1 m ρ c, first_row1 m ρ c]
/-- The adjacency is an input window of the middle kernel: unchanged. -/
theorem mid_adj (c : Dev nD) : V3 m ρ c main_arg1 = m ((c : Thread nD τ).loc main_arg1) :=
  (W3_arr m ρ c 0).trans ((((dat1 (V2 m ρ) c).arrAt_in 0 rfl _).trans (A_eq1 (V2 m ρ) c 0)).trans (first_adj m ρ c))

/-! ## After the last kernel -/

/-- The result buffer at the end of the run is the network's function of the arguments. -/
theorem result (c : Dev nD) : W4 m ρ c (Proc.devRef .tc main_v6)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 2).trans ((Last.final (V3 m ρ) c).trans ?_)
  rw [mid_adj m ρ c, mid_out m ρ c]
  rfl

end Cert.KernelIdeal.Whole

end
-- ==== Proof.RefAsGcn.lean ====
/-
  The reference program's result is the network's function `Gcn.out` of its six arguments.

  Each of its stages is read at an entry (p, q): a product `Σ_k l[p, k] · r[k, q]` (the host's `dot_general` over the
  extended reals), the transposed weight read at the swapped entry, the bias broadcast from `[128]` through `[1, 128]`
  to every row, the activation `max · 0` against the broadcast zero. Stage by stage: first layer, aggregation,
  activation, second layer, aggregation.
-/
import proofs.«148541_g73469710566064_cont_sun_m_849_2_alg».proof.Proof.Gen.ReferenceIdeal.Read
import proofs.«148541_g73469710566064_cont_sun_m_849_2_alg».proof.Proof.Spec

noncomputable section

namespace Cert.ReferenceIdeal.AsGcn

open Cert.ReferenceIdeal Cert.ReferenceIdeal.Read Cert.Gcn
open Idealize.ShloMosaic Idealize.ShloMosaic.ValueIdx

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first layer: `x · W0ᵀ + b0`. -/
theorem first_layer : val_main_v4 (F := Ideal) x0 x2 x3 = arr2 (lin x0 (tr x2) (row x3)) := by
  funext i
  obtain ⟨p, q, rfl⟩ : ∃ (p : Fin 10000) (q : Fin 128), i = ix2 p q := ⟨i 0, i 1, eq_ix2 i⟩
  rw [val_main_v4_apply, val_main_v1_apply, val_main_v3_apply, val_main_v2_apply]
  show (∑ k : Fin 128, _) + _ = lin x0 (tr x2) (row x3) p q
  unfold lin
  refine congrArg₂ (· + ·) (Finset.sum_congr rfl fun k _ => ?_) ?_
  · rw [val_main_v0_apply]
    have e1 : lidx_main_v1 (ix2 p q) k = ix2 p k := funext fun a => Fin.ext (by
      match a with
      | ⟨0, _⟩ => rfl
      | ⟨1, _⟩ => rfl)
    have e2 : idx_main_v0 (ridx_main_v1 (ix2 p q) k) = ix2 q k := funext fun a => Fin.ext (by
      match a with
      | ⟨0, _⟩ => rfl
      | ⟨1, _⟩ => rfl)
    rw [e1, e2]
  · have e3 : idx_main_v2 (idx_main_v3 (ix2 p q)) = ix1 q := funext fun a => Fin.ext (by
      match a with
      | ⟨0, _⟩ => rfl)
    rw [e3]

/-- The first aggregation: `adj · (first layer)`. -/
theorem aggregated : val_main_v5 (F := Ideal) x0 x1 x2 x3 = arr2 (agg x1 (val_main_v4 (F := Ideal) x0 x2 x3)) := by
  funext i
  obtain ⟨p, q, rfl⟩ : ∃ (p : Fin 10000) (q : Fin 128), i = ix2 p q := ⟨i 0, i 1, eq_ix2 i⟩
  rw [val_main_v5_apply]
  show _ = agg x1 (val_main_v4 (F := Ideal) x0 x2 x3) p q
  unfold agg
  refine Finset.sum_congr rfl fun k _ => ?_
  have e1 : lidx_main_v5 (ix2 p q) k = ix2 p k := funext fun a => Fin.ext (by
    match a with
    | ⟨0, _⟩ => rfl
    | ⟨1, _⟩ => rfl)
  have e2 : ridx_main_v5 (ix2 p q) k = ix2 k q := funext fun a => Fin.ext (by
    match a with
    | ⟨0, _⟩ => rfl
    | ⟨1, _⟩ => rfl)
  rw [e1, e2]

/-- The activation: `max · 0` entry by entry. -/
theorem activated : val_main_v6 (F := Ideal) x0 x1 x2 x3
    = arr2 (fun p k => max (agg x1 (val_main_v4 (F := Ideal) x0 x2 x3) p k) zero) := by
  funext i
  obtain ⟨p, q, rfl⟩ : ∃ (p : Fin 10000) (q : Fin 128), i = ix2 p q := ⟨i 0, i 1, eq_ix2 i⟩
  rw [val_main_v6_apply, val_main_call0_v0_apply, val_main_call0_cst_apply, aggregated]
  rfl

/-- The second layer: `h · W1ᵀ + b1`. -/
theorem second_layer : val_main_v11 (F := Ideal) x0 x1 x2 x3 x4 x5
    = arr2 (lin (val_main_v6 (F := Ideal) x0 x1 x2 x3) (tr x4) (row x5)) := by
  funext i
  obtain ⟨p, q, rfl⟩ : ∃ (p : Fin 10000) (q : Fin 128), i = ix2 p q := ⟨i 0, i 1, eq_ix2 i⟩
  rw [val_main_v11_apply, val_main_v8_apply, val_main_v10_apply, val_main_v9_apply]
  show (∑ k : Fin 128, _) + _ = lin (val_main_v6 (F := Ideal) x0 x1 x2 x3) (tr x4) (row x5) p q
  unfold lin
  refine congrArg₂ (· + ·) (Finset.sum_congr rfl fun k _ => ?_) ?_
  · rw [val_main_v7_apply]
    have e1 : lidx_main_v8 (ix2 p q) k = ix2 p k := funext fun a => Fin.ext (by
      match a with
      | ⟨0, _⟩ => rfl
      | ⟨1, _⟩ => rfl)
    have e2 : idx_main_v7 (ridx_main_v8 (ix2 p q) k) = ix2 q k := funext fun a => Fin.ext (by
      match a with
      | ⟨0, _⟩ => rfl
      | ⟨1, _⟩ => rfl)
    rw [e1, e2]
  · have e3 : idx_main_v9 (idx_main_v10 (ix2 p q)) = ix1 q := funext fun a => Fin.ext (by
      match a with
      | ⟨0, _⟩ => rfl)
    rw [e3]

/-- The second aggregation: `adj · (second layer)`. -/
theorem result : val_main_v12 (F := Ideal) x0 x1 x2 x3 x4 x5
    = arr2 (agg x1 (val_main_v11 (F := Ideal) x0 x1 x2 x3 x4 x5)) := by
  funext i
  obtain ⟨p, q, rfl⟩ : ∃ (p : Fin 10000) (q : Fin 128), i = ix2 p q := ⟨i 0, i 1, eq_ix2 i⟩
  rw [val_main_v12_apply]
  show _ = agg x1 (val_main_v11 (F := Ideal) x0 x1 x2 x3 x4 x5) p q
  unfold agg
  refine Finset.sum_congr rfl fun k _ => ?_
  have e1 : lidx_main_v12 (ix2 p q) k = ix2 p k := funext fun a => Fin.ext (by
    match a with
    | ⟨0, _⟩ => rfl
    | ⟨1, _⟩ => rfl)
  have e2 : ridx_main_v12 (ix2 p q) k = ix2 k q := funext fun a => Fin.ext (by
    match a with
    | ⟨0, _⟩ => rfl
    | ⟨1, _⟩ => rfl)
  rw [e1, e2]

/-- The reference's result is the network's function of the arguments. -/
theorem is_out : val_main_v12 (F := Ideal) x0 x1 x2 x3 x4 x5 = out x0 x1 x2 x3 x4 x5 := by
  rw [result, second_layer, activated, first_layer]
  unfold out
  exact congrArg (fun f => arr2 (agg x1 (arr2 f)))
    (funext fun p => funext fun q => lin_relu_agg x1 (arr2 (lin x0 (tr x2) (row x3))) (tr x4) (row x5) p q)

end Cert.ReferenceIdeal.AsGcn

end
-- ==== Proof.lean ====
/-
  A two-layer graph convolution over a dense adjacency,
      out = adj · (max (adj · (x · W0ᵀ + b0)) 0 · W1ᵀ + b1),
  computed by three kernels — the first linear layer in one step; fifty blocks of 200 adjacency rows, each multiplied
  with the whole feature matrix, clamped at zero and passed through the second linear layer; fifty blocks of rows
  multiplied with the whole second-layer matrix — against the same five operations written as whole-array host
  operations.

  Over the extended reals both are ONE function of the six arguments (`Gcn.out`, Proof/Spec.lean): a product into a
  zero accumulator and the host's contraction are the same sum over the contracted axis, the row blocks are
  restrictions of the whole product, the activation is `max · 0` on both sides, and the transposed weights and the
  bias rows are the same re-indexing. No law beyond the sums being the same sums is used, so the finiteness of the
  inputs is never opened.

  Proof/KFirst.lean, Proof/KMid.lean, Proof/KLast.lean: what each kernel leaves in its output array, as a function of
  the arrays it finds. Proof/KRun.lean: the program's run with the result buffer named. Proof/KWhole.lean: the three
  composed from the launch contents. Proof/RefAsGcn.lean: the reference's stages read at an entry. Here: the claims.
-/
import proofs.«148541_g73469710566064_cont_sun_m_849_2_alg».proof.Defs
import proofs.«148541_g73469710566064_cont_sun_m_849_2_alg».proof.Proof.Gen.Kernel
import proofs.«148541_g73469710566064_cont_sun_m_849_2_alg».proof.Proof.Gen.Kernel.Skeleton
import proofs.«148541_g73469710566064_cont_sun_m_849_2_alg».proof.Proof.Gen.Kernel.Launch
import proofs.«148541_g73469710566064_cont_sun_m_849_2_alg».proof.Proof.Gen.Kernel.Points
import proofs.«148541_g73469710566064_cont_sun_m_849_2_alg».proof.Proof.Gen.Kernel.Frame
import proofs.«148541_g73469710566064_cont_sun_m_849_2_alg».proof.Proof.Gen.KernelIdeal
import proofs.«148541_g73469710566064_cont_sun_m_849_2_alg».proof.Proof.Gen.KernelIdeal.Skeleton
import proofs.«148541_g73469710566064_cont_sun_m_849_2_alg».proof.Proof.Gen.KernelIdeal.Launch
import proofs.«148541_g73469710566064_cont_sun_m_849_2_alg».proof.Proof.Gen.KernelIdeal.Points
import proofs.«148541_g73469710566064_cont_sun_m_849_2_alg».proof.Proof.Gen.KernelIdeal.Frame
import proofs.«148541_g73469710566064_cont_sun_m_849_2_alg».proof.Proof.Gen.ReferenceIdeal
import proofs.«148541_g73469710566064_cont_sun_m_849_2_alg».proof.Proof.Gen.Pre_finite_inputs
import proofs.«148541_g73469710566064_cont_sun_m_849_2_alg».proof.Proof.Gen.ReferenceIdeal.Run
import proofs.«148541_g73469710566064_cont_sun_m_849_2_alg».proof.Proof.Gen.ReferenceIdeal.Read
import proofs.«148541_g73469710566064_cont_sun_m_849_2_alg».proof.Proof.KRun
import proofs.«148541_g73469710566064_cont_sun_m_849_2_alg».proof.Proof.KWhole
import proofs.«148541_g73469710566064_cont_sun_m_849_2_alg».proof.Proof.RefAsGcn
import Idealize.ShloMosaic.Adequacy
import Idealize.ShloMosaic.Init

noncomputable section

namespace Cert.Proof

open Idealize.ShloMosaic Idealize.ShloMosaic.TcCoe Idealize.SL.Sem

/-- The three-kernel program as printed: it terminates, faults nowhere and leaves its arguments as launched. -/
theorem frame_kernel : Cert.frame_Kernel := fun m ρ _ => Cert.Kernel.Gen.frame m ρ

/-- The same program read over the extended reals. -/
theorem frame_kernel_ideal : Cert.frame_KernelIdeal := fun m ρ _ => Cert.KernelIdeal.Gen.frame m ρ

/-- The reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernels was rewritten for the reading over the extended reals. -/
theorem preserves : Cert.preserves_Kernel_KernelIdeal := trivial

/-- From memories agreeing on the six arguments both programs end with the result array at `Gcn.out` of them. -/
theorem algebraic : Cert.algebraic_KernelIdeal_ReferenceIdeal := by
  intro m ρ m' ρ' _ hagree
  refine ⟨fun c => Cert.Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [Cert.ReferenceIdeal.Read.val_main_v12_eq, Cert.ReferenceIdeal.AsGcn.is_out, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
